-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts]

def fn {F : FTy → Type} [FloatOps F] (main_arg0 : FVec F S65536x1000 .f32) (main_arg1 : FVec F S65536x1000 .f32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S65536x1000 .f32 := Host.absf main_arg1
  let main_cst_0 : FVec F S_ .f32 := constant S_ .f32 0x7F800000#32
  let main_v5 : FVec F S65536x1000 .f32 := broadcastInDim S65536x1000 ![] bcast_S_S65536x1000 main_cst_0
  let main_v6 : IVec S65536x1000 1 := cmpf .olt main_v4 main_v5
  let main_c_1 : IVec S_ 1 := constantI S_ 1 1#1
  let main_v7 : IVec S_ 1 := (fun x v => Host.reduce IntOp.andi x v reducesTo_S65536x1000_S_d0_1 h_S_) main_v6 main_c_1
  let main_v8 : IVec S_ 1 := andi main_v3 main_v7
  main_v8
-- ==== Kernel.lean ====
abbrev S65536x1000 : Shape := ⟨2, ![65536, 1000]⟩
abbrev S64x1x1024 : Shape := ⟨3, ![64, 1, 1024]⟩
abbrev S1024x1000 : Shape := ⟨2, ![1024, 1000]⟩
abbrev S1x1x1024 : Shape := ⟨3, ![1, 1, 1024]⟩
abbrev S1024 : Shape := ⟨1, ![1024]⟩
abbrev S1024x1 : Shape := ⟨2, ![1024, 1]⟩
abbrev S1x1024 : Shape := ⟨2, ![1, 1024]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S64x1x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x1000, .f32⟩
  | .local _ .vmem, ⟨3, _⟩ => ⟨S1024x1000, .f32⟩
  | .local _ .vmem, ⟨4, _⟩ => ⟨S1x1x1024, .f32⟩
  | .local _ .vmem, ⟨5, _⟩ => ⟨S1x1x1024, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  natLt_1_32 : 1 < 32
  transposes_S1024x1_p1_0_S1x1024 : S1024x1.Transposes [1, 0] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  reducesTo_S64x1x1024_S_d0_1_2 : S64x1x1024.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S65536x1000.size a
  hwx0_0 : ∀ i : grid0.Coords, EltTy.bits .f32 = 32 ∨ (Rect.block (s := S65536x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1000.size a ≤ S65536x1000.size a
  hwx0_1 : ∀ i : grid0.Coords, EltTy.bits .f32 = 32 ∨ (Rect.block (s := S65536x1000) S1024x1000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S64x1x1024.size a
  hwx0_2 : ∀ i : grid0.Coords, EltTy.bits .f32 = 32 ∨ (Rect.block (s := S64x1x1024) S1x1x1024.size (cc0_transform_2 i) (hinb0_2 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1000 : Shape := ⟨2, ![65536, 1000]⟩
abbrev S_ : Shape := ⟨0, ![]⟩
abbrev S65536 : Shape := ⟨1, ![65536]⟩
abbrev S65536x1 : Shape := ⟨2, ![65536, 1]⟩

abbrev nBuf : Space → Nat
  | .hbm => 71
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536x1000, .f32⟩
  | .hbm, ⟨2, _⟩ => ⟨S_, .f32⟩
  | .hbm, ⟨3, _⟩ => ⟨S65536x1000, .f32⟩
  | .hbm, ⟨4, _⟩ => ⟨S65536x1000, .i1⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S65536x1000, .f32⟩
  | .hbm, ⟨9, _⟩ => ⟨S65536x1000, .f32⟩
  | .hbm, ⟨10, _⟩ => ⟨S65536x1000, .f32⟩
  | .hbm, ⟨11, _⟩ => ⟨S_, .f32⟩
  | .hbm, ⟨12, _⟩ => ⟨S65536x1000, .f32⟩
  | .hbm, ⟨13, _⟩ => ⟨S65536x1000, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1000, .f32⟩
  | .hbm, ⟨19, _⟩ => ⟨S65536x1000, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S65536x1000, .f32⟩
  | .hbm, ⟨24, _⟩ => ⟨S_, .f32⟩
  | .hbm, ⟨25, _⟩ => ⟨S65536x1000, .f32⟩
  | .hbm, ⟨26, _⟩ => ⟨S65536x1000, .f32⟩
  | .hbm, ⟨27, _⟩ => ⟨S_, .f32⟩
  | .hbm, ⟨28, _⟩ => ⟨S65536, .f32⟩
  | .hbm, ⟨29, _⟩ => ⟨S65536x1, .f32⟩
  | .hbm, ⟨30, _⟩ => ⟨S65536x1000, .f32⟩
  | .hbm, ⟨31, _⟩ => ⟨S65536x1000, .f32⟩
  | .hbm, ⟨32, _⟩ => ⟨S65536x1000, .f32⟩
  | .hbm, ⟨33, _⟩ => ⟨S65536x1000, .f32⟩
  | .hbm, ⟨34, _⟩ => ⟨S65536x1000, .f32⟩
  | .hbm, ⟨35, _⟩ => ⟨S65536x1000, .f32⟩
  | .hbm, ⟨36, _⟩ => ⟨S65536x1000, .f32⟩
  | .hbm, ⟨37, _⟩ => ⟨S65536x1000, .f32⟩
  | .hbm, ⟨38, _⟩ => ⟨S65536x1000, .f32⟩
  | .hbm, ⟨39, _⟩ => ⟨S65536x1000, .f32⟩
  | .hbm, ⟨40, _⟩ => ⟨S65536x1000, .f32⟩
  | .hbm, ⟨41, _⟩ => ⟨S65536x1000, .f32⟩
  | .hbm, ⟨42, _⟩ => ⟨S65536x1000, .i1⟩
  | .hbm, ⟨43, _⟩ => ⟨S65536x1000, .i32⟩
  | .hbm, ⟨44, _⟩ => ⟨S_, .i32⟩
  | .hbm, ⟨45, _⟩ => ⟨S65536, .i32⟩
  | .hbm, ⟨46, _⟩ => ⟨S_, .f32⟩
  | .hbm, ⟨47, _⟩ => ⟨S65536x1000, .f32⟩
  | .hbm, ⟨48, _⟩ => ⟨S65536x1000, .f32⟩
  | .hbm, ⟨49, _⟩ => ⟨S_, .f32⟩
  | .hbm, ⟨50, _⟩ => ⟨S65536, .f32⟩
  | .hbm, ⟨51, _⟩ => ⟨S65536x1, .f32⟩
  | .hbm, ⟨52, _⟩ => ⟨S65536x1, .f32⟩
  | .hbm, ⟨53, _⟩ => ⟨S65536, .f32⟩
  | .hbm, ⟨54, _⟩ => ⟨S65536, .f32⟩
  | .hbm, ⟨55, _⟩ => ⟨S65536, .f32⟩
  | .hbm, ⟨56, _⟩ => ⟨S65536, .f32⟩
  | .hbm, ⟨57, _⟩ => ⟨S65536, .f32⟩
  | .hbm, ⟨58, _⟩ => ⟨S_, .i32⟩
  | .hbm, ⟨59, _⟩ => ⟨S65536, .i32⟩
  | .hbm, ⟨60, _⟩ => ⟨S65536, .i32⟩
  | .hbm, ⟨61, _⟩ => ⟨S65536, .f32⟩
  | .hbm, ⟨62, _⟩ => ⟨S_, .i32⟩
  | .hbm, ⟨63, _⟩ => ⟨S65536, .i32⟩
  | .hbm, ⟨64, _⟩ => ⟨S65536, .i1⟩
  | .hbm, ⟨65, _⟩ => ⟨S65536, .f32⟩
  | .hbm, ⟨66, _⟩ => ⟨S65536, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_call0_v0 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_call1_v0 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_call2_v0 : Ref sig .tc := ⟨.hbm, 25, rfl⟩
abbrev main_v14 : Ref sig .tc := ⟨.hbm, 26, rfl⟩
abbrev main_cst_6 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c : Ref sig .tc := ⟨.hbm, 44, rfl⟩
abbrev main_v31 : Ref sig .tc := ⟨.hbm, 45, rfl⟩
abbrev main_cst_7 : Ref sig .tc := ⟨.hbm, 46, rfl⟩
abbrev main_call3_v0 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩

abbrev nD : Nat := 1
abbrev τ : Topo := Topo.v7x

variable {F : FTy → Type} [FloatOps F]

class Facts₀ : Prop where
  bcast_S_S65536x1000 : S_.BroadcastsInDim S65536x1000 (![] : Fin 0 → Fin S65536x1000.rank)
  reducesTo_S65536x1000_S65536_d1 : S65536x1000.ReducesTo [1] S65536
  h_S_ : 0 < S_.numel
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  natLt_1_32 : 1 < 32
  shapeCasts_S65536x1_S65536 : S65536x1.ShapeCasts S65536
  bcast_S_S65536 : S_.BroadcastsInDim S65536 (![] : Fin 0 → Fin S65536.rank)
  reducesTo_S65536_S_d0 : S65536.ReducesTo [0] S_

variable [Facts₀]

class Facts : Prop extends Facts₀ where

variable [Facts]
-- ==== Proof.RowLoss.lean ====
/-
  One row of the multi-label cross-entropy, on the extended reals.

  A row has 1000 columns: scores `o` and soft labels `t`. Column `j` is a NEGATIVE when `t j ≤ 1/2` and a POSITIVE
  otherwise. With `M = max_j o_j`, `e_j = exp (o_j - M)`, and over the negatives `S = Σ e_j`, `T = Σ t_j`, `A = Σ t_j o_j`,
  the loss of a positive `p` is `(T + t_p) (M + log (S + e_p)) - A - t_p o_p`; the row's loss is the mean of these over
  the positives, or, when the row has no positive, `T (M + log S) - A`. The result of the whole computation is the mean
  of the row losses over the 65536 rows.

  Two programs spell the row differently. One counts the positives as a sum of real 0/1 terms, compares the count with
  zero as a real, and guards the logarithm of the fallback by `max S ε` for a small `ε`; the other counts them as a
  sum of 32-bit words and converts the count. `rowLossK` and `rowLossR` are these two spellings, `rowLoss` the
  mathematical one, and the two laws at the end say each spelling is `rowLoss`: the word count of at most 1000 ones is
  the number of ones; and the guard is idle because a row with no positive has every column in `S`, one of which is the
  maximum's own `exp 0 = 1`, so `S ≥ 1 ≥ ε` — this is where the scores must be finite.
-/
import Idealize.ShloMosaic.PureOps.Ideal.Laws
import Idealize.ShloMosaic.Lib.ValueIdx
import Idealize.ShloMosaic.Lib.IndicatorCount
import Idealize.ShloMosaic.Lib.IdealHost

noncomputable section

namespace Cert.RowLoss

open Idealize.ShloMosaic Idealize.ShloMosaic.ValueIdx

/-- One row of scores or of labels. -/
abbrev Row := Fin 1000 → EReal

/-- The threshold one half, as the bit pattern both programs carry. -/
def half : EReal := Ideal.ofBits .f32 0x3F000000#32

/-- Column `j` is a negative: its label is at most one half. -/
def isNeg (t : Row) (j : Fin 1000) : BitVec 1 := Ideal.cmp .ole (t j) half

/-- Column `j` is a positive: it is not a negative. -/
def isPos (t : Row) (j : Fin 1000) : BitVec 1 := ~~~(isNeg t j)

/-- The exclusive-or with the one bit is the complement. -/
theorem xori_one (b : BitVec 1) : IntOp.xori b 1#1 = ~~~b := by
  revert b; decide

/-- The row's maximum `M`: the fold of `max` from `-∞`. -/
def rowMax (o : Row) : EReal := (Finset.univ : Finset (Fin 1000)).fold max (Ideal.ofBits .f32 0xFF800000#32) o

/-- `e_j = exp (o_j - M)`. -/
def expShift (o : Row) (j : Fin 1000) : EReal := Ideal.exp (o j - rowMax o)

/-- `S`: the sum of `e_j` over the negatives. -/
def sNeg (o t : Row) : EReal := ∑ j, Scalar.select (isNeg t j) (expShift o j) 0

/-- `T`: the sum of the labels over the negatives. -/
def tNeg (t : Row) : EReal := ∑ j, Scalar.select (isNeg t j) (t j) 0

/-- `A`: the sum of label times score over the negatives. -/
def aNeg (o t : Row) : EReal := ∑ j, Scalar.select (isNeg t j) (t j * o j) 0

/-- The loss of column `j` taken as the one positive beside the negatives. -/
def lossAt (o t : Row) (j : Fin 1000) : EReal :=
  (tNeg t + t j) * (rowMax o + Ideal.log (sNeg o t + expShift o j)) - aNeg o t - t j * o j

/-- The sum of those losses over the positives. -/
def posLoss (o t : Row) : EReal := ∑ j, Scalar.select (isPos t j) (lossAt o t j) 0

/-- The row's loss when it has no positive. -/
def fallback (o t : Row) : EReal := tNeg t * (rowMax o + Ideal.log (sNeg o t)) - aNeg o t

/-- How many positives the row has. -/
def nPos (t : Row) : ℕ := (Finset.univ.filter fun j => isPos t j = 1#1).card

/-- The row's loss. -/
def rowLoss (o t : Row) : EReal :=
  if 0 < nPos t then Ideal.div (posLoss o t) (((nPos t : ℕ) : ℝ) : EReal) else fallback o t

/-- The count of positives as a sum of real 0/1 terms (each the signed value of the widened bit). -/
def cntF (t : Row) : EReal := ∑ j, ((((isPos t j).setWidth 32).toInt : ℝ) : EReal)

/-- The count of positives as a sum of 32-bit words. -/
def cntI (t : Row) : BitVec 32 := (Finset.univ : Finset (Fin 1000)).fold IntOp.addi 0#32 (fun j => (isPos t j).setWidth 32)

/-- The first spelling: a real count, and the fallback's logarithm guarded by `ε`. -/
def rowLossK (ε : EReal) (o t : Row) : EReal :=
  Scalar.select (Ideal.cmp .ogt (cntF t) 0) (Ideal.div (posLoss o t) (max (cntF t) 1))
    (tNeg t * (rowMax o + Ideal.log (max (sNeg o t) ε)) - aNeg o t)

/-- The second spelling: a word count, converted. -/
def rowLossR (o t : Row) : EReal :=
  Scalar.select (IntOp.cmpi .sgt (cntI t) 0#32) (Ideal.div (posLoss o t) ((((IntOp.maxsi (cntI t) 1#32).toInt : ℤ) : ℝ) : EReal))
    (fallback o t)

/-- Row `r` of a 65536 × 1000 array. -/
def rowOf (X : (⟨2, ![65536, 1000]⟩ : Shape).Idx → EReal) (r : Fin 65536) : Row := fun j => X (ix2 r j)

/-- The whole result: the mean of the row losses over the 65536 rows (the divisor as its bit pattern). -/
def total (X0 X1 : (⟨2, ![65536, 1000]⟩ : Shape).Idx → EReal) : EReal :=
  Ideal.div (∑ r : Fin 65536, rowLoss (rowOf X0 r) (rowOf X1 r)) (Ideal.ofBits .f32 0x47800000#32)

/-- The word count of the positives is the number of positives, as a 32-bit word. -/
theorem cntI_eq (t : Row) : cntI t = BitVec.ofNat 32 (nPos t) := by
  unfold cntI nPos
  exact IndicatorCount.fold_addi_setWidth_eq_card (fun j => isPos t j) Finset.univ

/-- A row has at most 1000 positives. -/
theorem nPos_le (t : Row) : nPos t ≤ 1000 := by
  unfold nPos
  exact (Finset.card_filter_le _ _).trans (by simp)

/-- The whole result in the first spelling of each row. -/
def totalK (ε : EReal) (X0 X1 : (⟨2, ![65536, 1000]⟩ : Shape).Idx → EReal) : EReal :=
  Ideal.div (∑ r : Fin 65536, rowLossK ε (rowOf X0 r) (rowOf X1 r)) (Ideal.ofBits .f32 0x47800000#32)

/-- The whole result in the second spelling of each row. -/
def totalR (X0 X1 : (⟨2, ![65536, 1000]⟩ : Shape).Idx → EReal) : EReal :=
  Ideal.div (∑ r : Fin 65536, rowLossR (rowOf X0 r) (rowOf X1 r)) (Ideal.ofBits .f32 0x47800000#32)

end Cert.RowLoss

end
-- ==== Proof.RowLaws.lean ====
/-
  The two spellings of a row's loss are the row's loss (Proof/RowLoss.lean has the definitions and the story).
-/
import proofs.«120759_j35150012350881_2_alg».proof.Proof.RowLoss

noncomputable section

namespace Cert.RowLoss

open Idealize.ShloMosaic Idealize.ShloMosaic.ValueIdx

/-- The signed value of a small count as a 32-bit word is the count. -/
theorem toInt_ofNat_small (n : ℕ) (hn : n ≤ 1000) : (BitVec.ofNat 32 n).toInt = (n : ℤ) := by
  rw [BitVec.toInt_eq_toNat_cond, BitVec.toNat_ofNat]
  have : n % 2 ^ 32 = n := Nat.mod_eq_of_lt (by omega)
  rw [this]
  split <;> omega

/-- The signed test `n > 0` on the word of a small count is the test on the count. -/
theorem cmpi_sgt_small (n : ℕ) (hn : n ≤ 1000) :
    IntOp.cmpi .sgt (BitVec.ofNat 32 n) 0#32 = BitVec.ofBool (decide (0 < n)) := by
  unfold IntOp.cmpi
  simp only [BitVec.slt, toInt_ofNat_small n hn]
  congr 1
  simp

/-- The signed maximum of a small positive count and one is the count (at one the two words are equal). -/
theorem maxsi_one_small (n : ℕ) (hn : n ≤ 1000) (h : 0 < n) :
    IntOp.maxsi (BitVec.ofNat 32 n) 1#32 = BitVec.ofNat 32 n := by
  unfold IntOp.maxsi
  split
  · rfl
  · rename_i hs
    have h1 : ¬ ((1#32).toInt < (BitVec.ofNat 32 n).toInt) := by
      simpa [BitVec.slt] using hs
    rw [toInt_ofNat_small n hn] at h1
    have : n = 1 := by
      have : (1#32).toInt = 1 := by decide
      omega
    subst this; rfl

/-- A one-bit word widened to 32 bits has signed value one or zero. -/
theorem toInt_setWidth_bit (b : BitVec 1) : ((b.setWidth 32).toInt : ℤ) = if b = 1#1 then 1 else 0 := by
  revert b; decide

/-- A column that is not a positive is a negative. -/
theorem isNeg_of_not_isPos (b : BitVec 1) (h : ~~~b ≠ 1#1) : b = 1#1 := by
  revert b; decide

/-- The embedding of the reals commutes with finite sums. -/
theorem coe_sum_real {ι : Type} (s : Finset ι) (f : ι → ℝ) :
    ((∑ j ∈ s, f j : ℝ) : EReal) = ∑ j ∈ s, ((f j : ℝ) : EReal) := by
  classical
  induction s using Finset.induction_on with
  | empty => simp
  | insert a s ha ih => rw [Finset.sum_insert ha, Finset.sum_insert ha, EReal.coe_add, ih]

/-- The real 0/1 count of the positives is their number. -/
theorem cntF_eq (t : Row) : cntF t = (((nPos t : ℕ) : ℝ) : EReal) := by
  unfold cntF nPos
  have h : ∀ j : Fin 1000, ((((isPos t j).setWidth 32).toInt : ℝ) : EReal)
      = (((if isPos t j = 1#1 then (1 : ℝ) else 0) : ℝ) : EReal) := by
    intro j
    rw [toInt_setWidth_bit]
    split <;> simp
  rw [Finset.sum_congr rfl fun j _ => h j, ← coe_sum_real, Finset.sum_boole]

/-- The exponential of the extended reals is nowhere negative. -/
theorem idealExp_nonneg (x : EReal) : 0 ≤ Ideal.exp x := by
  induction x using EReal.rec with
  | bot => simp
  | top => simp
  | coe r => rw [Ideal.exp_coe]; exact EReal.coe_nonneg.mpr (Real.exp_pos r).le

/-- The fold's seed is minus infinity. -/
theorem seed_eq_bot : Ideal.ofBits .f32 0xFF800000#32 = (⊥ : EReal) := by
  simp [Ideal.ofBits, Ideal.ieee]

/-- The maximum of a row is attained at one of its columns. -/
theorem rowMax_attained (o : Row) : ∃ j, rowMax o = o j := by
  obtain ⟨j, -, hj⟩ := Finset.exists_max_image (Finset.univ : Finset (Fin 1000)) o ⟨0, Finset.mem_univ _⟩
  refine ⟨j, le_antisymm ?_ ?_⟩
  · unfold rowMax
    rw [Finset.fold_max_le, seed_eq_bot]
    exact ⟨bot_le, fun x hx => hj x hx⟩
  · unfold rowMax
    rw [Finset.le_fold_max]
    exact Or.inr ⟨j, Finset.mem_univ _, le_rfl⟩

/-- With finite scores and every column a negative, the sum of the shifted exponentials is at least one:
    the column of the maximum contributes exp 0 = 1 and no column contributes less than 0. -/
theorem one_le_sNeg (o t : Row) (ho : ∀ j, ∃ r : ℝ, o j = (r : EReal)) (hall : ∀ j, isNeg t j = 1#1) :
    1 ≤ sNeg o t := by
  obtain ⟨j, hj⟩ := rowMax_attained o
  obtain ⟨r, hr⟩ := ho j
  have h1 : expShift o j = 1 := by
    unfold expShift
    rw [hj, hr, ← EReal.coe_sub, sub_self, Ideal.exp_coe, Real.exp_zero, EReal.coe_one]
  have hs : sNeg o t = ∑ j, expShift o j := by
    unfold sNeg
    refine Finset.sum_congr rfl fun i _ => ?_
    simp [Scalar.select, hall i]
  rw [hs, ← h1]
  exact Finset.single_le_sum (f := expShift o) (fun i _ => idealExp_nonneg _) (Finset.mem_univ j)

/-- The second spelling is the row's loss: a count of at most 1000 is its own signed value as a 32-bit word. -/
theorem rowLossR_eq (o t : Row) : rowLossR o t = rowLoss o t := by
  unfold rowLossR rowLoss
  rw [cntI_eq]
  have hn := nPos_le t
  generalize nPos t = n at hn ⊢
  rw [cmpi_sgt_small n hn]
  by_cases h : 0 < n
  · rw [maxsi_one_small n hn h, toInt_ofNat_small n hn]
    simp [Scalar.select, h]
  · simp [Scalar.select, h]

/-- The first spelling is the row's loss when the scores are finite and the guard is at most one. -/
theorem rowLossK_eq (ε : EReal) (hε : ε ≤ 1) (o t : Row) (ho : ∀ j, ∃ r : ℝ, o j = (r : EReal)) :
    rowLossK ε o t = rowLoss o t := by
  unfold rowLossK rowLoss
  rw [cntF_eq]
  have hcmp : Ideal.cmp .ogt ((((nPos t : ℕ) : ℝ) : EReal)) 0 = BitVec.ofBool (decide (0 < nPos t)) := by
    unfold Ideal.cmp
    simp [EReal.coe_pos]
  rw [hcmp]
  by_cases h : 0 < nPos t
  · have h1 : max ((((nPos t : ℕ) : ℝ) : EReal)) 1 = (((nPos t : ℕ) : ℝ) : EReal) := by
      apply max_eq_left
      rw [← EReal.coe_one, EReal.coe_le_coe_iff]
      exact_mod_cast h
    rw [h1]
    simp [Scalar.select, h]
  · have h0 : nPos t = 0 := by omega
    have hall : ∀ j, isNeg t j = 1#1 := by
      intro j
      apply isNeg_of_not_isPos
      intro hp
      have : j ∈ Finset.univ.filter fun j => isPos t j = 1#1 := Finset.mem_filter.mpr ⟨Finset.mem_univ _, hp⟩
      unfold nPos at h0
      rw [Finset.card_eq_zero] at h0
      rw [h0] at this
      exact absurd this (Finset.notMem_empty j)
    have hmax : max (sNeg o t) ε = sNeg o t := max_eq_left (hε.trans (one_le_sNeg o t ho hall))
    rw [hmax]
    simp [Scalar.select, h, fallback]

/-- So the whole result in the second spelling is the result. -/
theorem totalR_eq (X0 X1 : (⟨2, ![65536, 1000]⟩ : Shape).Idx → EReal) : totalR X0 X1 = total X0 X1 := by
  have h : (fun r : Fin 65536 => rowLossR (rowOf X0 r) (rowOf X1 r)) = fun r => rowLoss (rowOf X0 r) (rowOf X1 r) :=
    funext fun r => rowLossR_eq _ _
  unfold totalR total
  rw [h]

/-- And in the first spelling too, when every score is finite and the guard is at most one. -/
theorem totalK_eq (ε : EReal) (hε : ε ≤ 1) (X0 X1 : (⟨2, ![65536, 1000]⟩ : Shape).Idx → EReal)
    (h0 : ∀ i, ∃ r : ℝ, X0 i = (r : EReal)) : totalK ε X0 X1 = total X0 X1 := by
  have h : (fun r : Fin 65536 => rowLossK ε (rowOf X0 r) (rowOf X1 r)) = fun r => rowLoss (rowOf X0 r) (rowOf X1 r) :=
    funext fun r => rowLossK_eq ε hε _ _ fun j => h0 _
  unfold totalK total
  rw [h]

end Cert.RowLoss

end
-- ==== Proof.OutArr.lean ====
/-
  The kernel's output array and its sum.

  The kernel writes a [64, 1, 1024] array: entry (b, 0, q) is the loss of row `1024 b + q` of the 65536 rows (block `b`
  of 1024 rows, row `q` inside it). Summing the array over all its entries is summing the row losses over the rows:
  (b, 0, q) ↦ 1024 b + q is a bijection onto the 65536 rows.
-/
import proofs.«120759_j35150012350881_2_alg».proof.Proof.RowLoss

noncomputable section

namespace Cert.RowLoss

open Idealize.ShloMosaic Idealize.ShloMosaic.ValueIdx

/-- The row that entry (b, 0, q) of the [64, 1, 1024] output stands for: `1024 b + q`. -/
def rowIdx (i : (⟨3, ![64, 1, 1024]⟩ : Shape).Idx) : Fin 65536 :=
  ⟨1024 * (i 0).val + (i 2).val, by
    have h0 : (i 0).val < 64 := (i 0).isLt
    have h2 : (i 2).val < 1024 := (i 2).isLt
    omega⟩

/-- The output array as one function of the two argument arrays, in the first spelling of a row. -/
def outArr (ε : EReal) (X0 X1 : (⟨2, ![65536, 1000]⟩ : Shape).Idx → EReal) : (⟨3, ![64, 1, 1024]⟩ : Shape).Idx → EReal :=
  fun i => rowLossK ε (rowOf X0 (rowIdx i)) (rowOf X1 (rowIdx i))

/-- (b, 0, q) ↦ 1024 b + q is a bijection from the entries of the [64, 1, 1024] array onto the 65536 rows: its inverse
    sends row `r` to (r / 1024, 0, r % 1024), and the two are inverse by `r = 1024 (r / 1024) + r % 1024` with
    `q < 1024`; the middle coordinate ranges over one value. -/
def rowEquiv : (⟨3, ![64, 1, 1024]⟩ : Shape).Idx ≃ Fin 65536 where
  toFun := rowIdx
  invFun r := ix3 (⟨r.val / 1024, by have := r.isLt; omega⟩ : Fin 64) (0 : Fin 1) (⟨r.val % 1024, by omega⟩ : Fin 1024)
  left_inv i := by
    have h0 : (i 0).val < 64 := (i 0).isLt
    have h1 : (i 1).val < 1 := (i 1).isLt
    have h2 : (i 2).val < 1024 := (i 2).isLt
    funext a
    match a with
    | ⟨0, _⟩ => exact Fin.ext (show (1024 * (i 0).val + (i 2).val) / 1024 = (i 0).val by omega)
    | ⟨1, _⟩ => exact Fin.ext (show 0 = (i 1).val by omega)
    | ⟨2, _⟩ => exact Fin.ext (show (1024 * (i 0).val + (i 2).val) % 1024 = (i 2).val by omega)
  right_inv r := Fin.ext (show 1024 * (r.val / 1024) + r.val % 1024 = r.val by omega)

/-- The sum of the output array over its entries is the sum of the row losses over the rows: the same terms, indexed
    along that bijection. -/
theorem sum_outArr (ε : EReal) (X0 X1 : (⟨2, ![65536, 1000]⟩ : Shape).Idx → EReal) :
    ∑ i : (⟨3, ![64, 1, 1024]⟩ : Shape).Idx, outArr ε X0 X1 i = ∑ r : Fin 65536, rowLossK ε (rowOf X0 r) (rowOf X1 r) := by
  exact Fintype.sum_equiv rowEquiv (outArr ε X0 X1) (fun r : Fin 65536 => rowLossK ε (rowOf X0 r) (rowOf X1 r)) (fun _ => rfl)

/-- So the mean the host takes of the output array (a sum started from the zero pattern, divided by the pattern of
    65536) is the whole result in the first spelling. -/
theorem mean_outArr (ε : EReal) (X0 X1 : (⟨2, ![65536, 1000]⟩ : Shape).Idx → EReal) :
    Ideal.div (Ideal.ofBits .f32 0x00000000#32 + ∑ i : (⟨3, ![64, 1, 1024]⟩ : Shape).Idx, outArr ε X0 X1 i)
      (Ideal.ofBits .f32 0x47800000#32) = totalK ε X0 X1 := by
  rw [Ideal.ofBits_zero_f32, zero_add, sum_outArr]
  rfl

end Cert.RowLoss

end
-- ==== Proof.Finite.lean ====
/-
  From the precondition to "every entry is a real number".

  The precondition is a conjunction of two statements, one for each input array `x`: `|x i| < +∞` at every index `i`.
  Each is spelt as the conjunction over both axes (a reduction by `and` from the constant 1) of the pointwise comparisons
  of `|x|` with the pattern `0x7F800000`, which denotes `+∞`. On the extended reals `|x| = max x (-x)`: this is `+∞` at
  both infinities and `|r| < +∞` at a real `r`. So the comparison holds at an index exactly when the entry there is a real,
  and a conjunction that comes out 1 had a 1 at every index.
-/
import proofs.«120759_j35150012350881_2_alg».proof.Pre_finite_inputs
import proofs.«120759_j35150012350881_2_alg».proof.Proof.Gen.Pre_finite_inputs
import Idealize.ShloMosaic.Lib.ReduceAll
import Idealize.ShloMosaic.Lib.ValueIdx

noncomputable section

namespace Cert.Finite

open Idealize.ShloMosaic

/-- The pattern `0x7F800000` (sign 0, exponent all ones, significand 0) denotes `+∞`. -/
theorem inf_eq_top : Ideal.ofBits .f32 0x7F800000#32 = (⊤ : EReal) := by
  simp [Ideal.ofBits, Ideal.ieee]

/-- An extended real whose absolute value `max x (-x)` is below `+∞` is a real: at `-∞` the maximum is `-(-∞) = +∞`,
    at `+∞` it is `+∞` itself, and neither is below `+∞`. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- Under the precondition every entry of the first array is a real: the precondition's one value is the `and` of the
    two arrays' conjunctions, so the first conjunction is 1, so its term at `i` is 1, and that term is
    `|a i| < +∞`. -/
theorem finite_of_pre [Cert.Pre_finite_inputs.Facts] (a b : FVec Ideal Cert.Pre_finite_inputs.S65536x1000 .f32)
    (h : Cert.Pre_finite_inputs.fn (F := Ideal) a b = fun _ => 1#1) (i : Cert.Pre_finite_inputs.S65536x1000.Idx) :
    ∃ r : ℝ, a i = (r : EReal) := by
  have h0 := congrFun h ValueIdx.ix0
  dsimp only [Cert.Pre_finite_inputs.fn] at h0
  obtain ⟨ha, _⟩ := IntOp.andi_eq_one.1 h0
  exact real_of_abs_lt_inf (a i) (Host.reduce_andi_all _ _ _ _ _ ha i)

/-- The same for the second array, from the second conjunction. -/
theorem finite_of_pre_snd [Cert.Pre_finite_inputs.Facts] (a b : FVec Ideal Cert.Pre_finite_inputs.S65536x1000 .f32)
    (h : Cert.Pre_finite_inputs.fn (F := Ideal) a b = fun _ => 1#1) (i : Cert.Pre_finite_inputs.S65536x1000.Idx) :
    ∃ r : ℝ, b i = (r : EReal) := by
  have h0 := congrFun h ValueIdx.ix0
  dsimp only [Cert.Pre_finite_inputs.fn] at h0
  obtain ⟨_, hb⟩ := IntOp.andi_eq_one.1 h0
  exact real_of_abs_lt_inf (b i) (Host.reduce_andi_all _ _ _ _ _ hb i)

end Cert.Finite

end
-- ==== Proof.KernelBlock.lean ====
/-
  What one block of 1024 rows leaves in its output: at position `q`, the loss of row `q`.

  The block's result is a [1, 1, 1024] array: the [1, 1024] transpose of a [1024, 1] column, with a unit axis put in
  front. Row by row the column chooses between the mean of the positives' losses and the guarded fallback, and it is
  built from six columns, each a reduction of a 1024 × 1000 term along the 1000 columns, kept as a [1024, 1] column:
  the row maximum `M`; over the negatives the sums `S` of `exp (o - M)`, `T` of the labels and `A` of label times
  score; the count of the positives as a sum of 0/1 terms; and the sum over the positives of their losses.

  Read at `(q, 0)` each of the six is the quantity of row `q` that `Cert.RowLoss` names. Three facts carry this. A sum
  along one axis, read at a kept index, is the sum over that axis's coordinates of the term at the index with the
  coordinate put back, and that index is `(q, k)`. The maximum along the axis is likewise the fold of `max` from `-∞`
  over the coordinates. And a [1024, 1] column spread back over the 1000 columns reads, at `(q, k)`, the column at
  `(q, 0)`: this is how `M`, `S`, `T` and `A` enter the term of the last sum. The zero and one bit patterns are the
  extended reals `0` and `1`; the exclusive-or of a condition with the one bit is its complement.
-/
import proofs.«120759_j35150012350881_2_alg».proof.Proof.Gen.KernelIdeal.Frame
import proofs.«120759_j35150012350881_2_alg».proof.Proof.RowLoss
import Idealize.ShloMosaic.Lib.ValueIdx
import Idealize.ShloMosaic.Lib.ValueLayout
import Idealize.ShloMosaic.Lib.Pipeline.Value
import Idealize.ShloMosaic.Lib.IdealHost
import Idealize.ShloMosaic.PureOps.IdealRules
import Idealize.ShloMosaic.PureOps.Ideal.Laws

noncomputable section
open Idealize.ShloMosaic Idealize.ShloMosaic.ValueIdx

namespace Cert.KernelIdeal.BlockValue
open Cert.KernelIdeal Cert.KernelIdeal.Gen Cert.RowLoss

/-- Row `q` of a 1024 × 1000 block. -/
abbrev rowAt (v : Vec Ideal S1024x1000 .f32) (q : Fin 1024) : Row := fun j => v (ix2 q j)

/-- The offsets `(0, 0)` are zero on every axis. -/
theorem offsets2_zero : (![0, 0] : Fin 2 → Nat) = fun _ => 0 := funext fun a => by fin_cases a <;> rfl
/-- The offsets `(0, 0, 0)` are zero on every axis. -/
theorem offsets3_zero : (![0, 0, 0] : Fin 3 → Nat) = fun _ => 0 := funext fun a => by fin_cases a <;> rfl

/-! ## Columns: a vector kept as `[a, 1]`, and a column spread over `[a, b]` -/

section Columns
variable {α : Type}

/-- An `[a]` array cast to the column `[a, 1]` reads, at `(i, u)`, the operand at `i`: the two row-major positions are
    `i` and `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column at `(p, 0)`: the row coordinate is kept (if `a` is
    `1` it is `0` anyway) and the unit axis is read at `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A reduction along the 1000 columns, kept as a column, read at `(q, 0)` -/

/-- Row index `q` with the column coordinate `k` put back is `(q, k)`. -/
theorem lift_eq (q : Fin 1024) (k : Fin 1000) :
    (reduces_S1024x1000_S1024).lift (ix1 q) k = ix2 q k :=
  funext fun a => Fin.ext (by match a with | ⟨0, _⟩ => rfl | ⟨1, _⟩ => rfl)

/-- A sum along the columns kept as a column: at `(q, 0)` it is the sum of row `q`. -/
theorem colsum_at (w : FVec Ideal S1024x1000 .f32) (q : Fin 1024) :
    shapeCast S1024x1 (multiReduction (F := Ideal) .add [1] S1024 w 0x00000000#32 reduces_S1024x1000_S1024 (.inl rfl) rfl)
        shapeCasts_S1024_S1024x1 (ix2 q (0 : Fin 1))
      = ∑ k : Fin 1000, w (ix2 q k) := by
  refine (shapeCast_a_a1_apply _ _ q 0).trans ?_
  refine (Ideal.multiReduction_add_single w _ reduces_S1024x1000_S1024 (.inl rfl) rfl (ix1 q)).trans ?_
  exact Finset.sum_congr rfl fun k _ => congrArg w (lift_eq q k)

/-! ## The conditions, and the six columns at `(q, 0)` -/

/-- "The label is at most one half", at `(q, j)`: column `j` of row `q` is a negative. -/
theorem pay2_at (v1 : Vec Ideal S1024x1000 .f32) (q : Fin 1024) (j : Fin 1000) :
    k0_pay2 (F := Ideal) v1 (ix2 q j) = isNeg (rowAt v1 q) j := rfl

/-- Its exclusive-or with the one bit is its complement: column `j` of row `q` is a positive. -/
theorem pay3_at (v1 : Vec Ideal S1024x1000 .f32) (q : Fin 1024) (j : Fin 1000) :
    k0_pay3 (F := Ideal) v1 (ix2 q j) = isPos (rowAt v1 q) j := by
  show IntOp.xori (k0_pay2 (F := Ideal) v1 (ix2 q j)) 1#1 = _
  rw [xori_one, pay2_at]; rfl

/-- The maximum along the columns, at `(q, 0)`: the fold of `max` from `-∞` over row `q`, which is `M`. -/
theorem pay4_at (v0 : Vec Ideal S1024x1000 .f32) (q : Fin 1024) :
    k0_pay4 (F := Ideal) v0 (ix2 q (0 : Fin 1)) = rowMax (rowAt v0 q) := by
  unfold k0_pay4
  refine (shapeCast_a_a1_apply _ _ q 0).trans ?_
  refine (Ideal.multiReduction_maximumf_single v0 _ reduces_S1024x1000_S1024 (.inl rfl) rfl (ix1 q)).trans ?_
  unfold rowMax
  exact congrArg (fun f => (Finset.univ : Finset (Fin 1000)).fold max (Ideal.ofBits .f32 0xFF800000#32) f)
    (funext fun k => congrArg v0 (lift_eq q k))

/-- `exp` of the score less the row maximum spread over the columns, at `(q, j)`: `e_j` of row `q`. -/
theorem pay5_at (v0 : Vec Ideal S1024x1000 .f32) (q : Fin 1024) (j : Fin 1000) :
    k0_pay5 (F := Ideal) v0 (ix2 q j) = expShift (rowAt v0 q) j := by
  unfold k0_pay5
  show Ideal.exp (v0 (ix2 q j) - broadcastTo S1024x1000 (k0_pay4 (F := Ideal) v0) broadcasts_S1024x1_S1024x1000 (ix2 q j)) = _
  exact congrArg (fun m => Ideal.exp (v0 (ix2 q j) - m)) ((broadcastTo_a1_ab_apply _ _ q j).trans (pay4_at v0 q))

/-- The sum of `e_j` over the negatives (zero elsewhere), at `(q, 0)`: `S` of row `q`. -/
theorem pay6_at (v0 v1 : Vec Ideal S1024x1000 .f32) (q : Fin 1024) :
    k0_pay6 (F := Ideal) v0 v1 (ix2 q (0 : Fin 1)) = sNeg (rowAt v0 q) (rowAt v1 q) := by
  unfold k0_pay6
  refine (colsum_at _ q).trans ?_
  refine Finset.sum_congr rfl fun k _ => ?_
  show Scalar.select (k0_pay2 (F := Ideal) v1 (ix2 q k)) (k0_pay5 (F := Ideal) v0 (ix2 q k)) (Ideal.ofBits .f32 0x00000000#32) = _
  rw [pay2_at, pay5_at, Ideal.ofBits_zero_f32]

/-- The sum of the labels over the negatives, at `(q, 0)`: `T` of row `q`. -/
theorem pay7_at (v1 : Vec Ideal S1024x1000 .f32) (q : Fin 1024) :
    k0_pay7 (F := Ideal) v1 (ix2 q (0 : Fin 1)) = tNeg (rowAt v1 q) := by
  unfold k0_pay7
  refine (colsum_at _ q).trans ?_
  refine Finset.sum_congr rfl fun k _ => ?_
  show Scalar.select (k0_pay2 (F := Ideal) v1 (ix2 q k)) (v1 (ix2 q k)) (Ideal.ofBits .f32 0x00000000#32) = _
  rw [pay2_at, Ideal.ofBits_zero_f32]

/-- The sum of label times score over the negatives, at `(q, 0)`: `A` of row `q`. -/
theorem pay8_at (v0 v1 : Vec Ideal S1024x1000 .f32) (q : Fin 1024) :
    k0_pay8 (F := Ideal) v0 v1 (ix2 q (0 : Fin 1)) = aNeg (rowAt v0 q) (rowAt v1 q) := by
  unfold k0_pay8
  refine (colsum_at _ q).trans ?_
  refine Finset.sum_congr rfl fun k _ => ?_
  show Scalar.select (k0_pay2 (F := Ideal) v1 (ix2 q k)) (v1 (ix2 q k) * v0 (ix2 q k)) (Ideal.ofBits .f32 0x00000000#32) = _
  rw [pay2_at, Ideal.ofBits_zero_f32]

/-- The sum of the positives' bits, each widened to 32 bits and read as a real, at `(q, 0)`: the real count of row `q`'s
    positives. -/
theorem pay9_at (v1 : Vec Ideal S1024x1000 .f32) (q : Fin 1024) :
    k0_pay9 (F := Ideal) v1 (ix2 q (0 : Fin 1)) = cntF (rowAt v1 q) := by
  unfold k0_pay9
  refine (colsum_at _ q).trans ?_
  refine Finset.sum_congr rfl fun k _ => ?_
  show (((((k0_pay3 (F := Ideal) v1 (ix2 q k)).setWidth 32).toInt : ℝ) : EReal)) = _
  rw [pay3_at]

/-- The logarithm of a block read at an index. -/
theorem log_at {s : Shape} (a : FVec Ideal s .f32) (i : s.Idx) : log a i = Ideal.log (a i) := rfl

/-- The term under the last sum, over ANY four columns `c7 c4 c6 c8`, any block `w5`, any condition `c` and any scalar `z`:
    at `(q, k)` each column is read at `(q, 0)` and each block at `(q, k)`, so it is
    `(c7 + t_k) (c4 + log (c6 + w5_k)) - c8 - t_k o_k` where the condition holds and `z` elsewhere. -/
theorem posTerm_at (v0 v1 w5 : FVec Ideal S1024x1000 .f32) (c : IVec S1024x1000 1) (c4 c6 c7 c8 : FVec Ideal S1024x1 .f32) (z : EReal)
    (q : Fin 1024) (k : Fin 1000) :
    select c
        (subf (subf (mulf (addf (broadcastTo S1024x1000 c7 broadcasts_S1024x1_S1024x1000) v1)
                  (addf (broadcastTo S1024x1000 c4 broadcasts_S1024x1_S1024x1000)
                    (log (addf (broadcastTo S1024x1000 c6 broadcasts_S1024x1_S1024x1000) w5))))
                (broadcastTo S1024x1000 c8 broadcasts_S1024x1_S1024x1000))
          (mulf v1 v0))
        (broadcast S1024x1000 z) (ix2 q k)
      = Scalar.select (c (ix2 q k))
          ((c7 (ix2 q (0 : Fin 1)) + v1 (ix2 q k)) * (c4 (ix2 q (0 : Fin 1)) + Ideal.log (c6 (ix2 q (0 : Fin 1)) + w5 (ix2 q k)))
            - c8 (ix2 q (0 : Fin 1)) - v1 (ix2 q k) * v0 (ix2 q k))
          z := by
  simp only [select_apply, subf_apply, mulf_apply, addf_apply, log_at, broadcast_apply, broadcastTo_a1_ab_apply]

/-- The sum over the positives of their losses, at `(q, 0)`: with `T`, `M`, `S`, `A` of row `q` for the four columns and
    `e_k` for the block, the term at `(q, k)` is the loss of column `k` taken as the one positive. -/
theorem pay10_at (v0 v1 : Vec Ideal S1024x1000 .f32) (q : Fin 1024) :
    k0_pay10 (F := Ideal) v0 v1 (ix2 q (0 : Fin 1)) = posLoss (rowAt v0 q) (rowAt v1 q) := by
  unfold k0_pay10
  refine (colsum_at _ q).trans ?_
  refine Finset.sum_congr rfl fun k _ => ?_
  refine (posTerm_at v0 v1 (k0_pay5 (F := Ideal) v0) (k0_pay3 (F := Ideal) v1) (k0_pay4 (F := Ideal) v0) (k0_pay6 (F := Ideal) v0 v1)
    (k0_pay7 (F := Ideal) v1) (k0_pay8 (F := Ideal) v0 v1) (Ideal.ofBits .f32 0x00000000#32) q k).trans ?_
  rw [pay3_at, pay7_at, pay4_at, pay6_at, pay5_at, pay8_at, Ideal.ofBits_zero_f32]
  rfl

/-! ## The row's term, and the block at `(0, 0, q)` -/

/-- The row's term over ANY six columns and three scalars, read at an index: where the count `c9` exceeds `z` the
    quotient of `c10` by `max c9 o`, elsewhere `c7 (c4 + log (max c6 e)) - c8`. -/
theorem rowTerm_at (c4 c6 c7 c8 c9 c10 : FVec Ideal S1024x1 .f32) (z o e : EReal) (i : S1024x1.Idx) :
    select (cmpf .ogt c9 (broadcast S1024x1 z)) (divf c10 (maximumf c9 (broadcast S1024x1 o)))
        (subf (mulf c7 (addf c4 (log (maximumf c6 (broadcast S1024x1 e))))) c8) i
      = Scalar.select (Ideal.cmp .ogt (c9 i) z) (Ideal.div (c10 i) (max (c9 i) o))
          (c7 i * (c4 i + Ideal.log (max (c6 i) e)) - c8 i) := by
  simp only [select_apply, cmpf_apply, divf_apply, maximumf_apply, subf_apply, mulf_apply, addf_apply, log_at, broadcast_apply]
  rfl

/-- The guard `ε` under the fallback's logarithm: the named constant. -/
def eps : EReal := Named.named (F := Ideal) Cert.KernelIdeal.κ "inv_1000000000000000000000000000000" (φ := .f32) 0x0DA24260#32

/-- It is `1 / 10^30`. -/
theorem eps_eq : eps = ((1 / 1000000000000000000000000000000 : ℝ) : EReal) :=
  IdealRules.named_const.ideal_named_scalar _ _ _ _ rfl

/-- Element `(0, 0, q)` of what the block leaves is the first spelling of row `q`'s loss: the one store covers the whole
    buffer, so the buffer is its payload; the unit axis in front and the transpose send `(0, 0, q)` to `(q, 0)` of the
    column; there the row's term reads the six columns, which are `M`, `S`, `T`, `A`, the real count and the sum of the
    positives' losses of row `q`; and the zero and one patterns are `0` and `1`. -/
theorem out_row (x0 x1 : Vec Ideal S1024x1000 .f32) (q : Fin 1024) :
    out0_2 (F := Ideal) x0 x1 (ix3 (0 : Fin 1) (0 : Fin 1) q)
      = rowLossK eps (fun j => x0 (ix2 q j)) (fun j => x1 (ix2 q j)) := by
  unfold out0_2
  rw [View.canon_unit_zero offsets3_zero]
  simp only [View.ld_unit_zero (S := S1024x1000) offsets2_zero]
  unfold k0_pay1
  refine (shapeCast_ab_1ab_apply _ _ 0 0 q).trans ?_
  refine (transpose_ix2_apply _ _ 0 q).trans ?_
  refine (rowTerm_at (k0_pay4 (F := Ideal) x0) (k0_pay6 (F := Ideal) x0 x1) (k0_pay7 (F := Ideal) x1) (k0_pay8 (F := Ideal) x0 x1)
    (k0_pay9 (F := Ideal) x1) (k0_pay10 (F := Ideal) x0 x1) (Ideal.ofBits .f32 0x00000000#32) (Ideal.ofBits .f32 0x3F800000#32) eps
    (ix2 q (0 : Fin 1))).trans ?_
  rw [pay9_at, pay10_at, pay7_at, pay4_at, pay6_at, pay8_at, Ideal.ofBits_zero_f32, Ideal.ofBits_one_f32]
  rfl

end Cert.KernelIdeal.BlockValue

end
-- ==== Proof.KernelArr.lean ====
/-
  From one grid point to the kernel's result.

  The kernel runs over 64 grid points; point `b` stages rows `1024 b … 1024 b + 1023` of the two [65536, 1000] argument
  arrays and writes the [1, 1, 1024] block `b` of the [64, 1, 1024] output array. One point's block, entry (0, 0, q), is
  the kernel's spelling of the loss of the staged row `q` (Proof/KernelBlock.lean); the staged row `q` of point `b` is row
  `1024 b + q` of the argument array, since a block's coordinate is index × size + the coordinate inside the block. The
  blocks tile the output array (entry (b, 0, q) lies in block `b`), so after the region the array is `outArr`: entry
  (b, 0, q) the loss of row `1024 b + q`. The host then sums the array from zero and divides by 65536, which is the mean
  over the rows (Proof/OutArr.lean). The argument arrays are staged and never written back.
-/
import proofs.«120759_j35150012350881_2_alg».proof.Proof.Gen.KernelIdeal.Frame
import proofs.«120759_j35150012350881_2_alg».proof.Proof.KernelBlock
import proofs.«120759_j35150012350881_2_alg».proof.Proof.RowLoss
import proofs.«120759_j35150012350881_2_alg».proof.Proof.OutArr
import Idealize.ShloMosaic.Lib.StableHlo.Run
import Idealize.ShloMosaic.Lib.ValueIdx
import Idealize.ShloMosaic.Lib.Pipeline.Value
import Idealize.ShloMosaic.Lib.IdealHost

noncomputable section

namespace Cert.KernelIdeal.ArrValue

open Cert.KernelIdeal Cert.KernelIdeal.Gen Cert.KernelIdeal.BlockValue Cert.RowLoss
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 64 points: point `t` takes block `t` of each argument's rows, all the
    columns, and writes block `t` of the output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- One point, over variables: if block rows are rows `1024 b + q` of the arrays, entry (0, 0, q) of what the body leaves
    is the loss of row `1024 b + q`. -/
theorem point_eq (X0 X1 : S65536x1000.Idx → EReal) (x0 x1 : Vec Ideal S1024x1000 .f32) (b : ℕ) (hb : b < 64)
    (h0 : ∀ (q : Fin 1024) (k : Fin 1000), x0 (ix2 q k) = X0 (ix2 (⟨1024 * b + q.val, by have := q.isLt; omega⟩ : Fin 65536) k))
    (h1 : ∀ (q : Fin 1024) (k : Fin 1000), x1 (ix2 q k) = X1 (ix2 (⟨1024 * b + q.val, by have := q.isLt; omega⟩ : Fin 65536) k))
    (q : Fin 1024) :
    out0_2 (F := Ideal) x0 x1 (ix3 (0 : Fin 1) (0 : Fin 1) q)
      = rowLossK eps (rowOf X0 ⟨1024 * b + q.val, by have := q.isLt; omega⟩) (rowOf X1 ⟨1024 * b + q.val, by have := q.isLt; omega⟩) := by
  refine (out_row x0 x1 q).trans ?_
  have e0 : (fun k => x0 (ix2 q k)) = rowOf X0 ⟨1024 * b + q.val, by have := q.isLt; omega⟩ := funext fun k => h0 q k
  have e1 : (fun k => x1 (ix2 q k)) = rowOf X1 ⟨1024 * b + q.val, by have := q.isLt; omega⟩ := funext fun k => h1 q k
  rw [e0, e1]

/-- Reading the output array through point `t`'s block is reading it at the embedded index. -/
theorem read_blk2 (t : Fin cfg0.N) (G : S64x1x1024.Idx → EReal) (j : ((cfg0.win 2).xblock (grid0.coords t)).Idx) :
    ((cfg0.win 2).blk t).view.read (Elt Ideal) G j = G (((cfg0.win 2).blk t).view.emb j) := rfl

/-- What the write-back at `t` takes of the staging buffer is the buffer itself (the window is not cut). -/
theorem cut2 (t : Fin cfg0.N) (X : Vec Ideal S1x1x1024 .f32) (j : ((cfg0.win 2).xblock (grid0.coords t)).Idx) :
    (cfg0.win 2).cut (grid0.coords t) X j = X (ix3 (0 : Fin 1) (0 : Fin 1) (⟨(j 2).val, (j 2).isLt⟩ : Fin 1024)) := by
  show X ((cfg0.win 2).xinj (grid0.coords t) j) = _
  refine congrArg X (funext fun a => Fin.ext ?_)
  match a with
  | ⟨0, _⟩ => have h : (j 0).val < 1 := (j 0).isLt; show (j 0).val = 0; omega
  | ⟨1, _⟩ => have h : (j 1).val < 1 := (j 1).isLt; show (j 1).val = 0; omega
  | ⟨2, _⟩ => rfl

theorem flushed_eq (c : Dev nD) (t : Fin cfg0.N) :
    (dats m 0 c).flushed 2 t = ((cfg0.win 2).blk t).view.read (Elt Ideal) (outArr eps (V m c main_arg0) (V m c main_arg1)) := by
  show (cfg0.win 2).cut (grid0.coords t) ((dats m 0 c).after 2 t) = _
  rw [after0_2]
  obtain ⟨e00, e01, e10, e11, e20, e21, e22⟩ := idx_facts t
  have ht : t.val < 64 := by have := t.isLt; have h : cfg0.N = 64 := N_0; omega
  funext j
  rw [read_blk2, cut2]
  refine (point_eq (V m c main_arg0) (V m c main_arg1) (iblk m c 0 t) (iblk m c 1 t) t.val ht ?_ ?_ ⟨(j 2).val, (j 2).isLt⟩).trans ?_
  · intro q k
    show V m c main_arg0 (((cfg0.win 0).blk t).view.emb (ix2 q k)) = V m c main_arg0 (ix2 _ k)
    refine congrArg (V m c main_arg0) (funext fun a => Fin.ext ?_)
    match a with
    | ⟨0, _⟩ => show win0_0.index t (0 : Fin 2) * 1024 + 1 * q.val = 1024 * t.val + q.val; omega
    | ⟨1, _⟩ => show win0_0.index t (1 : Fin 2) * 1000 + 1 * k.val = k.val; omega
  · intro q k
    show V m c main_arg1 (((cfg0.win 1).blk t).view.emb (ix2 q k)) = V m c main_arg1 (ix2 _ k)
    refine congrArg (V m c main_arg1) (funext fun a => Fin.ext ?_)
    match a with
    | ⟨0, _⟩ => show win0_1.index t (0 : Fin 2) * 1024 + 1 * q.val = 1024 * t.val + q.val; omega
    | ⟨1, _⟩ => show win0_1.index t (1 : Fin 2) * 1000 + 1 * k.val = k.val; omega
  · unfold outArr
    have hrow : rowIdx (((cfg0.win 2).blk t).view.emb j) = ⟨1024 * t.val + (j 2).val, by have h : (j 2).val < 1024 := (j 2).isLt; omega⟩ := by
      apply Fin.ext
      have h0 : (j 0).val < 1 := (j 0).isLt
      show 1024 * (win0_2.index t (0 : Fin 3) * 1 + 1 * (j 0).val) + (win0_2.index t (2 : Fin 3) * 1024 + 1 * (j 2).val) = 1024 * t.val + (j 2).val
      omega
    rw [hrow]

/-- An index of the output array is in point `t`'s block iff each coordinate is in the block's range on its axis. -/
theorem mem_blk2 (t : Fin cfg0.N) (i : S64x1x1024.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v0).slice (win0_2.rect t)).set ↔ _
  rw [View.set_slice_whole, Rect.mem_set_unit]
  exact Iff.rfl

/-- Every entry (b, 0, q) of the output array is in the block of point `b`. -/
theorem cover (i : S64x1x1024.Idx) : ∃ t : Fin cfg0.N, (cfg0.win 2).flush t = true ∧ i ∈ ((cfg0.win 2).blk t).view.set := by
  have h0 : (i 0).val < 64 := (i 0).isLt
  have h1 : (i 1).val < 1 := (i 1).isLt
  have h2 : (i 2).val < 1024 := (i 2).isLt
  have hN : (i 0).val < cfg0.N := by have h : cfg0.N = 64 := N_0; omega
  refine ⟨⟨(i 0).val, hN⟩, flush0_2 _, ?_⟩
  obtain ⟨-, -, -, -, e20', e21, e22⟩ := idx_facts ⟨(i 0).val, hN⟩
  have e20 : win0_2.index ⟨(i 0).val, hN⟩ (0 : Fin 3) = (i 0).val := e20'
  rw [mem_blk2]
  intro a
  match a with
  | ⟨0, _⟩ => show win0_2.index ⟨(i 0).val, hN⟩ (0 : Fin 3) * 1 ≤ (i 0).val ∧ (i 0).val < win0_2.index ⟨(i 0).val, hN⟩ (0 : Fin 3) * 1 + 1; omega
  | ⟨1, _⟩ => show win0_2.index ⟨(i 0).val, hN⟩ (1 : Fin 3) * 1 ≤ (i 1).val ∧ (i 1).val < win0_2.index ⟨(i 0).val, hN⟩ (1 : Fin 3) * 1 + 1; omega
  | ⟨2, _⟩ => show win0_2.index ⟨(i 0).val, hN⟩ (2 : Fin 3) * 1024 ≤ (i 2).val ∧ (i 2).val < win0_2.index ⟨(i 0).val, hN⟩ (2 : Fin 3) * 1024 + 1024; omega

/-- THE OUTPUT ARRAY after the region: entry (b, 0, q) the loss of row `1024 b + q` of the argument arrays. -/
theorem final (c : Dev nD) : (dats m 0 c).arrAt 2 cfg0.N = outArr eps (V m c main_arg0) (V m c main_arg1) :=
  (dats m 0 c).arrAt_eq_of_cover 2 (outArr eps (V m c main_arg0) (V m c main_arg1)) (fun t _ => flushed_eq m c t) cover

/-- THE RESULT: after the region the host sums the output array from zero and divides by 65536. -/
theorem tail_eq (c : Dev nD) :
    Pipeline.afterTail₀ cfgs (dats m) 0 (V0 m) [hostOps1] c main_v2
      = fun _ => totalK eps (m ((c.tc : Thread nD τ).loc main_arg0)) (m ((c.tc : Thread nD τ).loc main_arg1)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v0)
        = outArr eps (V m c main_arg0) (V m c main_arg1)
      from (Pipeline.withArrays_arr spec0 launch0.win.arr_inj c _ _ 2).trans (final m c)]
  funext i
  rw [hostDivf_apply, hostReduceAdd_apply, Ideal.hostReduceAdd_total _ (fun b => b.elim0)]
  exact mean_outArr eps (V m c main_arg0) (V m c main_arg1)

/-- After the frame run, argument `main_arg0` is as launched: an input window stages it and never writes it back. -/
theorem kept_main_arg0 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

theorem kept_main_arg1 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))

/-- The kernel's run with its result named: the mean over the 65536 rows of the kernel's spelling of the row loss. -/
theorem run : θ_run defs (onTc (τ := τ) (main (F := Ideal))) ⟨m, fun _ => 0, ρ⟩ fun r => ∀ c : Dev nD,
      r.2.mem ((c.tc : Thread nD τ).loc main_v2)
        = (fun _ => totalK eps (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 rfl (by decide))).trans (tail_eq m c),
       kept_main_arg0 m r h c, kept_main_arg1 m r h c⟩)
    (run_main m ρ)

end Cert.KernelIdeal.ArrValue
end
-- ==== Proof.RefValue.lean ====
/-
  The reference program's last stage is the mean of the row losses in its own spelling (`totalR` of Proof/RowLoss.lean).

  The program is read one operation at a time at an index (Proof/RefRead.lean). Row `r` of the 65536 and column `k` of
  the 1000 give the index `(r, k)` of a full array, `(r, 0)` of a one-column array and `r` of a row-wise result; every
  broadcast and reshape between these three shapes keeps `r`. The two row-wise folds that are not sums, the maximum of the
  scores and the 32-bit count of the positives, are folds over the columns of the row with the column inserted on the
  dropped axis, which is the index `(r, k)`. With those, each named quantity of a row is read off its stage: the bits
  `isNeg` and `isPos`, `rowMax`, `expShift`, the three sums `sNeg`, `tNeg`, `aNeg` over the negatives, `lossAt` and its
  sum `posLoss` over the positives, `fallback`, `cntI`, and so the row's loss `rowLossR`. The last two stages add the rows
  up from zero and divide by 65536; the sum over the rank-1 index set is the sum over its coordinate.
-/
import proofs.«120759_j35150012350881_2_alg».proof.Proof.RefRead
import proofs.«120759_j35150012350881_2_alg».proof.Proof.RowLoss
import Idealize.ShloMosaic.Lib.ValueIdx
import Idealize.ShloMosaic.Lib.IdealHost
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.PRead Cert.RowLoss Idealize.ShloMosaic Idealize.ShloMosaic.ValueIdx

/-- The two inputs' type: a 65536 × 1000 array of extended reals. -/
abbrev Arr := (⟨S65536x1000, .f32⟩ : BufTy).Contents (Elt Ideal)

/-- The witness that dropping axis 1 of a 65536 × 1000 array leaves its 65536 rows. -/
theorem reduces_rows : S65536x1000.Reduces [1] S65536 := by decide

/-- Row index `r` with column `k` inserted on the dropped axis is the index `(r, k)`. -/
theorem lift_rows (r : Fin 65536) (k : Fin 1000) : reduces_rows.lift (ix1 r) k = ix2 r k := by
  funext a
  match a with
  | ⟨0, _⟩ => exact Fin.ext rfl
  | ⟨1, _⟩ => exact Fin.ext rfl

/-- A column is a negative exactly when the reference's comparison bit says so. -/
theorem v1_at (x1 : Arr) (r : Fin 65536) (k : Fin 1000) :
    val_main_v1 (F := Ideal) x1 (ix2 r k) = isNeg (rowOf x1 r) k := by
  rw [val_main_v1_apply, val_main_v0_apply, val_main_cst_apply]
  rfl

/-- The complemented bit is the positive's. -/
theorem v29_at (x1 : Arr) (r : Fin 65536) (k : Fin 1000) :
    val_main_v29 (F := Ideal) x1 (ix2 r k) = isPos (rowOf x1 r) k := by
  rw [val_main_v29_apply, v1_at]
  rfl

/-- The reference's row maximum is the fold of `max` over the row. -/
theorem v2_row (x0 : Arr) (r : Fin 65536) :
    val_main_v2 (F := Ideal) x0 (ix1 r) = rowMax (rowOf x0 r) := by
  unfold val_main_v2
  rw [Host.reduce_eq_fold_single (FloatOps.maximumf (F := Ideal) (φ := .f32)) x0 (val_main_cst_0 (F := Ideal)) reducesTo_S65536x1000_S65536_d1 reduces_rows h_S_ (ix1 r)]
  unfold rowMax
  have h : (x0 ∘ reduces_rows.lift (ix1 r)) = rowOf x0 r := funext fun (k : Fin 1000) => by
    show x0 (reduces_rows.lift (ix1 r) k) = x0 (ix2 r k)
    rw [lift_rows]
  rw [h]
  rfl

/-- The reference's word count of a row's positives is `cntI`. -/
theorem v31_row (x1 : Arr) (r : Fin 65536) :
    val_main_v31 (F := Ideal) x1 (ix1 r) = cntI (rowOf x1 r) := by
  unfold val_main_v31
  rw [Host.reduce_eq_fold_single (IntOp.addi (w := 32)) (val_main_v30 (F := Ideal) x1) (val_main_c (F := Ideal)) reducesTo_S65536x1000_S65536_d1 reduces_rows h_S_ (ix1 r)]
  unfold cntI
  have h : (val_main_v30 (F := Ideal) x1 ∘ reduces_rows.lift (ix1 r)) = fun j => (isPos (rowOf x1 r) j).setWidth 32 := funext fun (k : Fin 1000) => by
    show val_main_v30 (F := Ideal) x1 (reduces_rows.lift (ix1 r) k) = _
    rw [lift_rows, val_main_v30_apply, v29_at]
  rw [h]
  rfl

/-- The zero pattern is the extended real zero. -/
theorem zero_pat : FloatOps.ofBits (F := Ideal) .f32 0x00000000#32 = (0 : EReal) := Ideal.ofBits_zero_f32

/-- A row index broadcast to one column, then read back as a row index, is the row index. -/
theorem idx_col_row (r : Fin 65536) : idx_main_v3 (ix2 r (0 : Fin 1)) = ix1 r := by
  funext a
  match a with
  | ⟨0, _⟩ => rfl

/-- Index `(r, k)` of the full array reads the one-column array at `(r, 0)`. -/
theorem idx_full_col (r : Fin 65536) (k : Fin 1000) : idx_main_v4 (ix2 r k) = ix2 r (0 : Fin 1) := by
  funext a
  match a with
  | ⟨0, _⟩ => rfl
  | ⟨1, _⟩ => rfl

/-- A row index reshaped to the one-column array is `(r, 0)`. -/
theorem idx_reshape (r : Fin 65536) : idx_main_v36 (ix1 r) = ix2 r (0 : Fin 1) := by
  funext a
  match a with
  | ⟨0, _⟩ => exact Fin.ext (Nat.div_one _)
  | ⟨1, _⟩ => rfl

/-- Row `r`'s column `k` of a row-wise sum is the array at `(r, k)`. -/
theorem idx_sum (r : Fin 65536) (k : Fin 1000) : idx_main_v8 (ix1 r) k = ix2 r k := by
  funext a
  match a with
  | ⟨0, _⟩ => rfl
  | ⟨1, _⟩ => rfl

/-- The row maximum as a one-column array. -/
theorem v3_col (x0 : Arr) (r : Fin 65536) :
    val_main_v3 (F := Ideal) x0 (ix2 r (0 : Fin 1)) = rowMax (rowOf x0 r) := by
  rw [val_main_v3_apply, idx_col_row, v2_row]

/-- The row maximum broadcast over the columns (for the shift). -/
theorem v4_at (x0 : Arr) (r : Fin 65536) (k : Fin 1000) :
    val_main_v4 (F := Ideal) x0 (ix2 r k) = rowMax (rowOf x0 r) := by
  rw [val_main_v4_apply, idx_full_col, v3_col]

/-- The row maximum broadcast over the columns (for the loss). -/
theorem v20_at (x0 : Arr) (r : Fin 65536) (k : Fin 1000) :
    val_main_v20 (F := Ideal) x0 (ix2 r k) = rowMax (rowOf x0 r) := by
  rw [val_main_v20_apply]
  exact (congrArg (val_main_v3 (F := Ideal) x0) (idx_full_col r k)).trans (v3_col x0 r)

/-- The shifted exponential of a column. -/
theorem v6_at (x0 : Arr) (r : Fin 65536) (k : Fin 1000) :
    val_main_v6 (F := Ideal) x0 (ix2 r k) = expShift (rowOf x0 r) k := by
  rw [val_main_v6_apply, val_main_v5_apply, v4_at]
  rfl

/-- `S`: the reference's sum of the shifted exponentials over the negatives. -/
theorem v8_row (x0 x1 : Arr) (r : Fin 65536) :
    val_main_v8 (F := Ideal) x0 x1 (ix1 r) = sNeg (rowOf x0 r) (rowOf x1 r) := by
  rw [val_main_v8_apply, val_main_cst_2_apply, zero_pat, zero_add]
  unfold sNeg
  refine Finset.sum_congr rfl fun k _ => ?_
  rw [idx_sum, val_main_v7_apply, v1_at, v6_at, val_main_call0_v0_apply, val_main_cst_1_apply, zero_pat]

/-- `T`: the reference's sum of the labels over the negatives. -/
theorem v11_row (x1 : Arr) (r : Fin 65536) :
    val_main_v11 (F := Ideal) x1 (ix1 r) = tNeg (rowOf x1 r) := by
  rw [val_main_v11_apply, val_main_cst_4_apply, zero_pat, zero_add]
  unfold tNeg
  refine Finset.sum_congr rfl fun k _ => ?_
  rw [show idx_main_v11 (ix1 r) k = ix2 r k from idx_sum r k, val_main_v10_apply, v1_at, val_main_call1_v0_apply,
    val_main_cst_3_apply, zero_pat]
  rfl

/-- `A`: the reference's sum of label times score over the negatives. -/
theorem v15_row (x0 x1 : Arr) (r : Fin 65536) :
    val_main_v15 (F := Ideal) x0 x1 (ix1 r) = aNeg (rowOf x0 r) (rowOf x1 r) := by
  rw [val_main_v15_apply, val_main_cst_6_apply, zero_pat, zero_add]
  unfold aNeg
  refine Finset.sum_congr rfl fun k _ => ?_
  rw [show idx_main_v15 (ix1 r) k = ix2 r k from idx_sum r k, val_main_v14_apply, v1_at, val_main_v13_apply,
    val_main_call2_v0_apply, val_main_cst_5_apply, zero_pat]
  rfl

/-- `S` as a one-column array. -/
theorem v9_col (x0 x1 : Arr) (r : Fin 65536) :
    val_main_v9 (F := Ideal) x0 x1 (ix2 r (0 : Fin 1)) = sNeg (rowOf x0 r) (rowOf x1 r) := by
  rw [val_main_v9_apply]
  exact (congrArg (val_main_v8 (F := Ideal) x0 x1) (idx_col_row r)).trans (v8_row x0 x1 r)
/-- `T` as a one-column array. -/
theorem v12_col (x1 : Arr) (r : Fin 65536) :
    val_main_v12 (F := Ideal) x1 (ix2 r (0 : Fin 1)) = tNeg (rowOf x1 r) := by
  rw [val_main_v12_apply]
  exact (congrArg (val_main_v11 (F := Ideal) x1) (idx_col_row r)).trans (v11_row x1 r)
/-- `A` as a one-column array. -/
theorem v16_col (x0 x1 : Arr) (r : Fin 65536) :
    val_main_v16 (F := Ideal) x0 x1 (ix2 r (0 : Fin 1)) = aNeg (rowOf x0 r) (rowOf x1 r) := by
  rw [val_main_v16_apply]
  exact (congrArg (val_main_v15 (F := Ideal) x0 x1) (idx_col_row r)).trans (v15_row x0 x1 r)

/-- `S` broadcast over the columns. -/
theorem v17_at (x0 x1 : Arr) (r : Fin 65536) (k : Fin 1000) :
    val_main_v17 (F := Ideal) x0 x1 (ix2 r k) = sNeg (rowOf x0 r) (rowOf x1 r) := by
  rw [val_main_v17_apply]
  exact (congrArg (val_main_v9 (F := Ideal) x0 x1) (idx_full_col r k)).trans (v9_col x0 x1 r)
/-- `T` broadcast over the columns. -/
theorem v22_at (x1 : Arr) (r : Fin 65536) (k : Fin 1000) :
    val_main_v22 (F := Ideal) x1 (ix2 r k) = tNeg (rowOf x1 r) := by
  rw [val_main_v22_apply]
  exact (congrArg (val_main_v12 (F := Ideal) x1) (idx_full_col r k)).trans (v12_col x1 r)
/-- `A` broadcast over the columns. -/
theorem v25_at (x0 x1 : Arr) (r : Fin 65536) (k : Fin 1000) :
    val_main_v25 (F := Ideal) x0 x1 (ix2 r k) = aNeg (rowOf x0 r) (rowOf x1 r) := by
  rw [val_main_v25_apply]
  exact (congrArg (val_main_v16 (F := Ideal) x0 x1) (idx_full_col r k)).trans (v16_col x0 x1 r)

/-- The loss of column `k` taken as the one positive beside the negatives. -/
theorem v28_at (x0 x1 : Arr) (r : Fin 65536) (k : Fin 1000) :
    val_main_v28 (F := Ideal) x0 x1 (ix2 r k) = lossAt (rowOf x0 r) (rowOf x1 r) k := by
  rw [val_main_v28_apply, val_main_v26_apply, val_main_v24_apply, val_main_v23_apply, val_main_v21_apply,
    val_main_v19_apply, val_main_v18_apply, val_main_v27_apply, v17_at, v20_at, v22_at, v25_at, v6_at]
  rfl

/-- The sum of those losses over the positives. -/
theorem v33_row (x0 x1 : Arr) (r : Fin 65536) :
    val_main_v33 (F := Ideal) x0 x1 (ix1 r) = posLoss (rowOf x0 r) (rowOf x1 r) := by
  rw [val_main_v33_apply, val_main_cst_8_apply, zero_pat, zero_add]
  unfold posLoss
  refine Finset.sum_congr rfl fun k _ => ?_
  rw [show idx_main_v33 (ix1 r) k = ix2 r k from idx_sum r k, val_main_v32_apply, v29_at, v28_at,
    val_main_call3_v0_apply, val_main_cst_7_apply, zero_pat]

/-- The row's loss when it has no positive. -/
theorem v40_row (x0 x1 : Arr) (r : Fin 65536) :
    val_main_v40 (F := Ideal) x0 x1 (ix1 r) = fallback (rowOf x0 r) (rowOf x1 r) := by
  rw [val_main_v40_apply, val_main_v38_apply, val_main_v37_apply, val_main_v36_apply, val_main_v39_apply,
    show idx_main_v37 (ix1 r) = ix2 r (0 : Fin 1) from idx_reshape r,
    show idx_main_v39 (ix1 r) = ix2 r (0 : Fin 1) from idx_reshape r, idx_reshape,
    val_main_v35_apply, val_main_v34_apply, v3_col, v9_col, v12_col, v16_col]
  rfl

/-- The row's loss in the reference's spelling. -/
theorem v47_row (x0 x1 : Arr) (r : Fin 65536) :
    val_main_v47 (F := Ideal) x0 x1 (ix1 r) = rowLossR (rowOf x0 r) (rowOf x1 r) := by
  rw [val_main_v47_apply, val_main_v45_apply, val_main_v46_apply, val_main_v43_apply, val_main_v42_apply,
    val_main_v41_apply, val_main_c_9_apply, val_main_v44_apply, val_main_c_10_apply, v31_row, v33_row, v40_row]
  rfl

/-- A rank-1 index set of 65536 entries is its coordinate's range. -/
def rowEquiv : S65536.Idx ≃ Fin 65536 where
  toFun j := j 0
  invFun r := ix1 r
  left_inv j := (eq_ix1 j).symm
  right_inv _ := rfl

/-- The reference's result is the mean, over the rows, of the row losses in its spelling. -/
theorem result_eq (x0 x1 : (⟨S65536x1000, .f32⟩ : BufTy).Contents (Elt Ideal)) :
    PRead.val_main_v49 (F := Ideal) x0 x1 = fun _ => totalR x0 x1 := by
  funext i
  rw [val_main_v49_apply, val_main_v48_apply, val_main_cst_11_apply, val_main_cst_12_apply, zero_pat, zero_add]
  have hs : (∑ j : S65536.Idx, val_main_v47 (F := Ideal) x0 x1 j) = ∑ r : Fin 65536, rowLossR (rowOf x0 r) (rowOf x1 r) :=
    Fintype.sum_equiv rowEquiv (fun j : S65536.Idx => val_main_v47 (F := Ideal) x0 x1 j)
      (fun r : Fin 65536 => rowLossR (rowOf x0 r) (rowOf x1 r)) (fun j => by
        obtain ⟨r, rfl⟩ : ∃ r : Fin 65536, j = ix1 r := ⟨j 0, eq_ix1 j⟩
        exact v47_row x0 x1 r)
  rw [hs]
  rfl

end Cert.ReferenceIdeal.RefValue

end
-- ==== Proof.lean ====
/-
  The kernel and its jnp reference compute one number from scores `o` and soft labels `t`, both f32[65536, 1000]: the
  mean over the rows of the multi-label cross-entropy of a row. In a row, column `j` is a negative when `t j ≤ 1/2` and
  a positive otherwise; with `M` the row's maximum score, `e j = exp (o j - M)` and, over the negatives, `S = Σ e j`,
  `T = Σ t j`, `A = Σ t j · o j`, a positive `p` costs `(T + t p)(M + log (S + e p)) - A - t p · o p`, and the row's loss is
  the mean of these over its positives, or `T (M + log S) - A` when it has none (Proof/RowLoss.lean).

  The kernel tiles the rows in 64 blocks of 1024, writes the row losses to a [64, 1, 1024] array, and the host sums that
  array and divides by 65536; it counts a row's positives as a real sum of 0/1 terms and guards the fallback's
  logarithm by `max S ε` with `ε` the named constant 1/10^30 (Proof/KernelBlock.lean: one block at an index;
  Proof/KernelArr.lean: the blocks tile the array, the host's mean; Proof/OutArr.lean: the sum over the array is the sum
  over the rows). The reference computes row by row on the host and counts the positives in 32-bit integers
  (Proof/RefValue.lean, over the run and the read-at-an-index lemmas of Proof/RefRun.lean and Proof/RefRead.lean).

  At the ideal instance both are `RowLoss.total` of the argument arrays (Proof/RowLaws.lean): a word count of at most
  1000 ones is the number of ones; and the guard is idle, because a row without a positive has every column in `S`, the
  maximum's own column contributing `exp 0 = 1`, so `S ≥ 1 ≥ ε`. That last step is the one place the precondition is
  used: the scores must be real numbers for the maximum to be attained at a finite value (Proof/Finite.lean). Sums are
  only ever re-indexed, never distributed over, so no other finiteness is needed.

  The frames of the two kernel programs are the generated ones; the reference's frame is its run with the result
  dropped. `preserves` is the one ledger entry: the named constant denotes 1/10^30 by the certificate's table.
-/
import proofs.«120759_j35150012350881_2_alg».proof.Defs
import proofs.«120759_j35150012350881_2_alg».proof.Proof.Gen.Kernel
import proofs.«120759_j35150012350881_2_alg».proof.Proof.Gen.Kernel.Skeleton
import proofs.«120759_j35150012350881_2_alg».proof.Proof.Gen.Kernel.Launch
import proofs.«120759_j35150012350881_2_alg».proof.Proof.Gen.Kernel.Points
import proofs.«120759_j35150012350881_2_alg».proof.Proof.Gen.Kernel.Frame
import proofs.«120759_j35150012350881_2_alg».proof.Proof.Gen.KernelIdeal
import proofs.«120759_j35150012350881_2_alg».proof.Proof.Gen.KernelIdeal.Skeleton
import proofs.«120759_j35150012350881_2_alg».proof.Proof.Gen.KernelIdeal.Launch
import proofs.«120759_j35150012350881_2_alg».proof.Proof.Gen.KernelIdeal.Points
import proofs.«120759_j35150012350881_2_alg».proof.Proof.Gen.KernelIdeal.Frame
import proofs.«120759_j35150012350881_2_alg».proof.Proof.Gen.ReferenceIdeal
import proofs.«120759_j35150012350881_2_alg».proof.Proof.Gen.Pre_finite_inputs
import proofs.«120759_j35150012350881_2_alg».proof.Proof.RefRun
import proofs.«120759_j35150012350881_2_alg».proof.Proof.RefRead
import proofs.«120759_j35150012350881_2_alg».proof.Proof.RowLoss
import proofs.«120759_j35150012350881_2_alg».proof.Proof.RowLaws
import proofs.«120759_j35150012350881_2_alg».proof.Proof.OutArr
import proofs.«120759_j35150012350881_2_alg».proof.Proof.Finite
import proofs.«120759_j35150012350881_2_alg».proof.Proof.KernelBlock
import proofs.«120759_j35150012350881_2_alg».proof.Proof.KernelArr
import proofs.«120759_j35150012350881_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The ledger's one entry: the table gives the guard's name the value 1/10^30. -/
theorem preserves : Cert.preserves_Kernel_KernelIdeal :=
  IdealRules.named_const.statement Cert.KernelIdeal.κ "inv_1000000000000000000000000000000" .f32 0x0DA24260#32
    ((1 / 1000000000000000000000000000000 : ℝ) : EReal) rfl

/-- The guard 1/10^30 is at most one. -/
theorem eps_le_one : Cert.KernelIdeal.BlockValue.eps ≤ 1 := by
  rw [Cert.KernelIdeal.BlockValue.eps_eq, ← EReal.coe_one, EReal.coe_le_coe_iff]
  norm_num

/-- Both programs end at `RowLoss.total` of the argument arrays: the kernel by its run, the two row laws and the scores'
    finiteness under the precondition; the reference by its run read stage by stage and the count law. -/
theorem algebraic : Cert.algebraic_KernelIdeal_ReferenceIdeal := by
  intro m ρ m' ρ' hpre hagree
  refine ⟨fun c => fun _ => Cert.RowLoss.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.KernelIdeal.ArrValue.run m ρ)
    exact funext fun _ => Cert.RowLoss.totalK_eq _ eps_le_one _ _ fun i => Cert.Finite.finite_of_pre _ _ (hpre c) i
  · refine (θ_run Cert.ReferenceIdeal.defs _ _).mono (fun r h c => ⟨(h c).1.trans ?_, (h c).2⟩)
      (Cert.ReferenceIdeal.PValue.run (F := Ideal) m' ρ')
    show _ = fun _ => Cert.RowLoss.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
    rw [Cert.ReferenceIdeal.PRead.val_main_v49_eq, Cert.ReferenceIdeal.RefValue.result_eq, (hagree c).1, (hagree c).2,
      Cert.RowLoss.totalR_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
